-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192 : Shape := ⟨2, ![8, 8192]⟩
abbrev S8192x16384 : Shape := ⟨2, ![8192, 16384]⟩
abbrev S8192 : Shape := ⟨1, ![8192]⟩
abbrev S2048x8192 : Shape := ⟨2, ![2048, 8192]⟩
abbrev S2048 : Shape := ⟨1, ![2048]⟩
abbrev S_ : Shape := ⟨0, ![]⟩

class Facts : Prop where
  bcast_S_S8x8192 : S_.BroadcastsInDim S8x8192 (![] : Fin 0 → Fin S8x8192.rank)
  reducesTo_S8x8192_S_d0_1 : S8x8192.ReducesTo [0, 1] S_
  h_S_ : 0 < S_.numel
  bcast_S_S8192x16384 : S_.BroadcastsInDim S8192x16384 (![] : Fin 0 → Fin S8192x16384.rank)
  reducesTo_S8192x16384_S_d0_1 : S8192x16384.ReducesTo [0, 1] S_
  bcast_S_S8192 : S_.BroadcastsInDim S8192 (![] : Fin 0 → Fin S8192.rank)
  reducesTo_S8192_S_d0 : S8192.ReducesTo [0] S_
  bcast_S_S2048x8192 : S_.BroadcastsInDim S2048x8192 (![] : Fin 0 → Fin S2048x8192.rank)
  reducesTo_S2048x8192_S_d0_1 : S2048x8192.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048x8192 .f32) (main_arg5 : FVec F S2048 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S2048x8192 .f32 := Host.absf main_arg4
  let main_cst_6 : FVec F S_ .f32 := constant S_ .f32 0x7F800000#32
  let main_v20 : FVec F S2048x8192 .f32 := broadcastInDim S2048x8192 ![] bcast_S_S2048x8192 main_cst_6
  let main_v21 : IVec S2048x8192 1 := cmpf .olt main_v19 main_v20
  let main_c_7 : IVec S_ 1 := constantI S_ 1 1#1
  let main_v22 : IVec S_ 1 := (fun x v => Host.reduce IntOp.andi x v reducesTo_S2048x8192_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S8x8192 .f32) (main_arg1 : FVec F S8x8192 .f32) (main_arg2 : FVec F S8192x16384 .f32) (main_arg3 : FVec F S8192 .f32) (main_arg4 : FVec F S2048x8192 .f32) (main_arg5 : FVec F S2048 .f32) : IVec S_ 1 :=
  let main_v0 : FVec F S8x8192 .f32 := Host.absf main_arg0
  let main_cst : FVec F S_ .f32 := constant S_ .f32 0x7F800000#32
  let main_v1 : FVec F S8x8192 .f32 := broadcastInDim S8x8192 ![] bcast_S_S8x8192 main_cst
  let main_v2 : IVec S8x8192 1 := cmpf .olt main_v0 main_v1
  let main_c : IVec S_ 1 := constantI S_ 1 1#1
  let main_v3 : IVec S_ 1 := (fun x v => Host.reduce IntOp.andi x v reducesTo_S8x8192_S_d0_1 h_S_) main_v2 main_c
  let main_v4 : FVec F S8x8192 .f32 := Host.absf main_arg1
  let main_cst_0 : FVec F S_ .f32 := constant S_ .f32 0x7F800000#32
  let main_v5 : FVec F S8x8192 .f32 := broadcastInDim S8x8192 ![] bcast_S_S8x8192 main_cst_0
  let main_v6 : IVec S8x8192 1 := cmpf .olt main_v4 main_v5
  let main_c_1 : IVec S_ 1 := constantI S_ 1 1#1
  let main_v7 : IVec S_ 1 := (fun x v => Host.reduce IntOp.andi x v reducesTo_S8x8192_S_d0_1 h_S_) main_v6 main_c_1
  let main_v8 : IVec S_ 1 := andi main_v3 main_v7
  let main_v9 : FVec F S8192x16384 .f32 := Host.absf main_arg2
  let main_cst_2 : FVec F S_ .f32 := constant S_ .f32 0x7F800000#32
  let main_v10 : FVec F S8192x16384 .f32 := broadcastInDim S8192x16384 ![] bcast_S_S8192x16384 main_cst_2
  let main_v11 : IVec S8192x16384 1 := cmpf .olt main_v9 main_v10
  let main_c_3 : IVec S_ 1 := constantI S_ 1 1#1
  let main_v12 : IVec S_ 1 := (fun x v => Host.reduce IntOp.andi x v reducesTo_S8192x16384_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_arg5 main_v13 main_v16
-- ==== Kernel.lean ====
abbrev S8x8192 : Shape := ⟨2, ![8, 8192]⟩
abbrev S8192x16384 : Shape := ⟨2, ![8192, 16384]⟩
abbrev S8192 : Shape := ⟨1, ![8192]⟩
abbrev S2048x8192 : Shape := ⟨2, ![2048, 8192]⟩
abbrev S2048 : Shape := ⟨1, ![2048]⟩
abbrev S1x8192 : Shape := ⟨2, ![1, 8192]⟩
abbrev S1x2048 : Shape := ⟨2, ![1, 2048]⟩
abbrev S256x8192 : Shape := ⟨2, ![256, 8192]⟩
abbrev S1x256 : Shape := ⟨2, ![1, 256]⟩
abbrev S8x256 : Shape := ⟨2, ![8, 256]⟩
abbrev S8x2048 : Shape := ⟨2, ![8, 2048]⟩

abbrev nBuf : Space → Nat
  | .hbm => 10
  | .vmem => 16
  | .smem => 0
  | _ => 0

abbrev bufTy : (tb : Table) → Fin (tcTables nBuf tb) → BufTy
  | .hbm, ⟨0, _⟩ => ⟨S8x8192, .f32⟩
  | .hbm, ⟨1, _⟩ => ⟨S8x8192, .f32⟩
  | .hbm, ⟨2, _⟩ => ⟨S8192x16384, .f32⟩
  | .hbm, ⟨3, _⟩ => ⟨S8192, .f32⟩
  | .hbm, ⟨4, _⟩ => ⟨S2048x8192, .f32⟩
  | .hbm, ⟨5, _⟩ => ⟨S2048, .f32⟩
  | .hbm, ⟨6, _⟩ => ⟨S1x8192, .f32⟩
  | .hbm, ⟨7, _⟩ => ⟨S1x2048, .f32⟩
  | .hbm, ⟨8, _⟩ => ⟨S8x8192, .f32⟩
  | .hbm, ⟨9, _⟩ => ⟨S8x2048, .f32⟩
  | .local _ .vmem, ⟨0, _⟩ => ⟨S8x8192, .f32⟩
  | .local _ .vmem, ⟨1, _⟩ => ⟨S8x8192, .f32⟩
  | .local _ .vmem, ⟨2, _⟩ => ⟨S256x8192, .f32⟩
  | .local _ .vmem, ⟨3, _⟩ => ⟨S256x8192, .f32⟩
  | .local _ .vmem, ⟨4, _⟩ => ⟨S1x256, .f32⟩
  | .local _ .vmem, ⟨5, _⟩ => ⟨S1x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x8192, .f32⟩
  | .local _ .vmem, ⟨10, _⟩ => ⟨S256x8192, .f32⟩
  | .local _ .vmem, ⟨11, _⟩ => ⟨S256x8192, .f32⟩
  | .local _ .vmem, ⟨12, _⟩ => ⟨S1x256, .f32⟩
  | .local _ .vmem, ⟨13, _⟩ => ⟨S1x256, .f32⟩
  | .local _ .vmem, ⟨14, _⟩ => ⟨S8x256, .f32⟩
  | .local _ .vmem, ⟨15, _⟩ => ⟨S8x256, .f32⟩
  | _, _ => ⟨S8x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S8x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S8x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S8192_S1x8192 : S8192.ShapeCasts S1x8192
  shapeCasts_S2048_S1x2048 : S2048.ShapeCasts S1x2048
  inb_S8x8192_S8x8192_0_0 : ∀ a, (![0, 0] : Fin 2 → Nat) a + S8x8192.size a ≤ S8x8192.size a
  h_S8x8192 : 0 < S8x8192.numel
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8x256 : S1x256.Broadcasts S8x256
  shapeCasts_S8x8192_S8x8192 : S8x8192.ShapeCasts S8x8192
  dot_S8x8192_S256x8192_S8x256_1_1_0_0_n_n_wf : DotDims.WF S8x8192 S256x8192 S8x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x8192.size a ≤ S8x8192.size a
  hwx0_0 : ∀ i : grid0.Coords, EltTy.bits .f32 = 32 ∨ (Rect.block (s := S8x8192) S8x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x8192.size a ≤ S8x8192.size a
  hwx0_1 : ∀ i : grid0.Coords, EltTy.bits .f32 = 32 ∨ (Rect.block (s := S8x8192) S8x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S8192x16384.size a
  hwx0_2 : ∀ i : grid0.Coords, EltTy.bits .f32 = 32 ∨ (Rect.block (s := S8192x16384) S256x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x8192.size a
  hwx0_3 : ∀ i : grid0.Coords, EltTy.bits .f32 = 32 ∨ (Rect.block (s := S1x8192) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S8x8192.size a
  hwx0_4 : ∀ i : grid0.Coords, EltTy.bits .f32 = 32 ∨ (Rect.block (s := S8x8192) S8x256.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x8192.size a ≤ S8x8192.size a
  hwx1_0 : ∀ i : grid1.Coords, EltTy.bits .f32 = 32 ∨ (Rect.block (s := S8x8192) S8x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x8192.size a ≤ S2048x8192.size a
  hwx1_1 : ∀ i : grid1.Coords, EltTy.bits .f32 = 32 ∨ (Rect.block (s := S2048x8192) S256x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x2048.size a
  hwx1_2 : ∀ i : grid1.Coords, EltTy.bits .f32 = 32 ∨ (Rect.block (s := S1x2048) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x256.size a ≤ S8x2048.size a
  hwx1_3 : ∀ i : grid1.Coords, EltTy.bits .f32 = 32 ∨ (Rect.block (s := S8x2048) S8x256.size (cc1_transform_3 i) (hinb1_3 i)).WholeWords (EltTy.packing .f32)

variable [Facts₀]

def dot_S8x8192_S256x8192_S8x256_1_1_0_0_n_n : DotDims S8x8192 S256x8192 S8x256 where
  lhsContracting := [1]
  rhsContracting := [1]
  lhsNonContracting := [0]
  rhsNonContracting := [0]
  lhsBatch := []
  rhsBatch := []
  wf := dot_S8x8192_S256x8192_S8x256_1_1_0_0_n_n_wf

abbrev win0_0 : Pipeline.Window sig grid0 :=
  Pipeline.Window.ofSpec (Memref.whole main_arg0) S8x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v2) S8x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S8x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x8192 : Shape := ⟨2, ![8, 8192]⟩
abbrev S8192x16384 : Shape := ⟨2, ![8192, 16384]⟩
abbrev S8192 : Shape := ⟨1, ![8192]⟩
abbrev S2048x8192 : Shape := ⟨2, ![2048, 8192]⟩
abbrev S2048 : Shape := ⟨1, ![2048]⟩
abbrev S8192x8192 : Shape := ⟨2, ![8192, 8192]⟩
abbrev S1x8192 : Shape := ⟨2, ![1, 8192]⟩
abbrev S8x2048 : Shape := ⟨2, ![8, 2048]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8x8192, .f32⟩
  | .hbm, ⟨1, _⟩ => ⟨S8x8192, .f32⟩
  | .hbm, ⟨2, _⟩ => ⟨S8192x16384, .f32⟩
  | .hbm, ⟨3, _⟩ => ⟨S8192, .f32⟩
  | .hbm, ⟨4, _⟩ => ⟨S2048x8192, .f32⟩
  | .hbm, ⟨5, _⟩ => ⟨S2048, .f32⟩
  | .hbm, ⟨6, _⟩ => ⟨S8192x8192, .f32⟩
  | .hbm, ⟨7, _⟩ => ⟨S8192x8192, .f32⟩
  | .hbm, ⟨8, _⟩ => ⟨S8x8192, .f32⟩
  | .hbm, ⟨9, _⟩ => ⟨S8x8192, .f32⟩
  | .hbm, ⟨10, _⟩ => ⟨S8x8192, .f32⟩
  | .hbm, ⟨11, _⟩ => ⟨S1x8192, .f32⟩
  | .hbm, ⟨12, _⟩ => ⟨S8x8192, .f32⟩
  | .hbm, ⟨13, _⟩ => ⟨S8x8192, .f32⟩
  | .hbm, ⟨14, _⟩ => ⟨S8x8192, .f32⟩
  | .hbm, ⟨15, _⟩ => ⟨S8x2048, .f32⟩
  | .hbm, ⟨16, _⟩ => ⟨S1x2048, .f32⟩
  | .hbm, ⟨17, _⟩ => ⟨S8x2048, .f32⟩
  | .hbm, ⟨18, _⟩ => ⟨S8x2048, .f32⟩
  | _, _ => ⟨S8x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  slices_S8192x16384_S8192x8192_0_0 : S8192x16384.Slices ![0, 0] S8192x8192
  slices_S8192x16384_S8192x8192_0_8192 : S8192x16384.Slices ![0, 8192] S8192x8192
  bcast_S8192_S1x8192_1 : S8192.BroadcastsInDim S1x8192 (![1] : Fin 1 → Fin S1x8192.rank)
  bcast_S1x8192_S8x8192_0_1 : S1x8192.BroadcastsInDim S8x8192 (![0, 1] : Fin 2 → Fin S8x8192.rank)
  bcast_S2048_S1x2048_1 : S2048.BroadcastsInDim S1x2048 (![1] : Fin 1 → Fin S1x2048.rank)
  bcast_S1x2048_S8x2048_0_1 : S1x2048.BroadcastsInDim S8x2048 (![0, 1] : Fin 2 → Fin S8x2048.rank)
  dot_S8x8192_S8192x8192_S8x8192_1_1_0_0_n_n_wf : DotDims.WF S8x8192 S8192x8192 S8x8192 [1] [1] [0] [0] [] []
  dot_S8x8192_S2048x8192_S8x2048_1_1_0_0_n_n_wf : DotDims.WF S8x8192 S2048x8192 S8x2048 [1] [1] [0] [0] [] []

variable [Facts₀]

def dot_S8x8192_S8192x8192_S8x8192_1_1_0_0_n_n : DotDims S8x8192 S8192x8192 S8x8192 where
  lhsContracting := [1]
  rhsContracting := [1]
  lhsNonContracting := [0]
  rhsNonContracting := [0]
  lhsBatch := []
  rhsBatch := []
  wf := dot_S8x8192_S8192x8192_S8x8192_1_1_0_0_n_n_wf
def dot_S8x8192_S2048x8192_S8x2048_1_1_0_0_n_n : DotDims S8x8192 S2048x8192 S8x2048 where
  lhsContracting := [1]
  rhsContracting := [1]
  lhsNonContracting := [0]
  rhsNonContracting := [0]
  lhsBatch := []
  rhsBatch := []
  wf := dot_S8x8192_S2048x8192_S8x2048_1_1_0_0_n_n_wf

class Facts : Prop extends Facts₀ where

variable [Facts]
-- ==== Proof.Ideal.Tiles.lean ====
/-
  The whole-buffer rectangles through which both kernel bodies load and store, and what each body leaves in
  the buffers it stores into, as functions of the contents it loads.

  The output layer's body (one tile of 256 output columns): out = x · wᵀ + b, with x the [8, 8192] hidden rows,
  w the [256, 8192] weight tile, b the [1, 256] bias tile broadcast over the 8 rows.

  The hidden layer's body runs twice per tile of 256 hidden columns. On the first visit it stores the first
  partial product acc = x · wᵀ into its accumulator; on the second visit it adds the second partial product,
  acc' = acc + h · wᵀ, stores it, reads it back and stores tanh (acc' + b) into the output tile.
-/
import proofs.«160519_j69879117906300_1_alg».proof.Proof.Gen.KernelIdeal.Launch
import proofs.«160519_j69879117906300_1_alg».proof.Proof.Gen.KernelIdeal.Skeleton
import proofs.«160519_j69879117906300_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The four shapes the bodies access, each through the rectangle that is the whole buffer. -/
abbrev rAct : Rect S8x8192 := Rect.unit (s := S8x8192) ![0, 0] S8x8192.size inb_S8x8192_S8x8192_0_0
abbrev rWgt : Rect S256x8192 := Rect.unit (s := S256x8192) ![0, 0] S256x8192.size inb_S256x8192_S256x8192_0_0
abbrev rBias : Rect S1x256 := Rect.unit (s := S1x256) ![0, 0] S1x256.size inb_S1x256_S1x256_0_0
abbrev rTile : Rect S8x256 := Rect.unit (s := S8x256) ![0, 0] S8x256.size inb_S8x256_S8x256_0_0

/-- One store through the whole-tile rectangle covers the tile. -/
theorem cover_tile (p0 : Vec F S8x256 .f32) (y : S8x256.Idx) :
    ∃ pc ∈ ([⟨rTile, p0⟩] : List (View.Piece (Elt F) S8x256 .f32)), y ∈ pc.1.set :=
  View.cover_of_tiled [⟨rTile, p0⟩] S8x256.size (by rfl) y

/-- The offsets of those rectangles are all zero. -/
theorem zero_offsets : (![0, 0] : Fin 2 → Nat) = fun _ => 0 := by funext a; fin_cases a <;> rfl

/-- The output layer's tile: x · wᵀ + b. -/
def outTile (x : Vec F S8x8192 .f32) (w : Vec F S256x8192 .f32) (b : Vec F S1x256 .f32) : Vec F S8x256 .f32 :=
  k1_pay1 x w b

/-- The hidden layer's accumulator after the first visit: x · wᵀ. -/
def accFirst (x : Vec F S8x8192 .f32) (w : Vec F S256x8192 .f32) : Vec F S8x256 .f32 :=
  k0_pay1 x w

/-- The accumulator after the second visit: s + h · wᵀ, over what the first visit left (s). -/
def accSecond (s : Vec F S8x256 .f32) (h : Vec F S8x8192 .f32) (w : Vec F S256x8192 .f32) : Vec F S8x256 .f32 :=
  k0_pay2 s h w

/-- The hidden tile: tanh (acc' + b), with acc' the accumulator read back after the second visit's store. -/
def hiddenTile (s : Vec F S8x256 .f32) (h : Vec F S8x8192 .f32) (w : Vec F S256x8192 .f32) (b : Vec F S1x256 .f32) : Vec F S8x256 .f32 :=
  k0_pay3 (accSecond s h w) b

/-- The first conditional of the hidden layer's body (the visit is the first of its tile), from the grid coordinates. -/
abbrev isFirst (i : grid0.Coords) : Prop :=
  (Scalar.cmpi .ne (Scalar.extui (Scalar.cmpi .eq (BitVec.ofNat 32 (i 1).val) 0#32)) 0#32) = 1#1
/-- The second conditional (the visit is the second of its tile). -/
abbrev isSecond (i : grid0.Coords) : Prop := k0_cond2 i = 1#1

end Cert.KernelIdeal.Hand

end
-- ==== Proof.Ideal.Blocks.lean ====
/-
  The windows' blocks. A region is entered with the TensorCore's buffers at some contents V. Window w's block at
  grid point t is the part of its array (as V has it) that the window's index map selects at t. An input window's
  staging buffer holds exactly that block whenever the body runs at t — whether the pipeline fetched it at t or the
  block index did not move since the last fetch — provided the body leaves its input buffers as it found them.
-/
import proofs.«160519_j69879117906300_1_alg».proof.Proof.Ideal.Tiles

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The hidden layer's region -/

/-- Window w's block at point t of the hidden layer's grid. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The output layer's region -/

/-- Window w's block at point t of the output layer's grid. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## Which visit a point of the hidden layer's grid is -/

/-- Points are numbered tile by tile, two visits each: the even ones are first visits, -/
theorem isFirst_iff : ∀ t : Fin cfg0.N, isFirst (grid0.coords t) ↔ t.val % 2 = 0 :=
  (by decide +kernel : ∀ t : Fin grid0.N, isFirst (grid0.coords t) ↔ t.val % 2 = 0)
/-- the odd ones second visits. -/
theorem isSecond_iff : ∀ t : Fin cfg0.N, isSecond (grid0.coords t) ↔ t.val % 2 = 1 :=
  (by decide +kernel : ∀ t : Fin grid0.N, isSecond (grid0.coords t) ↔ t.val % 2 = 1)

/-- The input windows are never idle; the output window is idle exactly at first visits, where the pipeline does not
    write it back either. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem idle0_4_first : ∀ t : Fin cfg0.N, t.val % 2 = 0 → cfg0.idle 4 (grid0.coords t) = true := by decide +kernel
theorem noFlush0_4_first : ∀ t : Fin cfg0.N, t.val % 2 = 0 → (cfg0.win 4).flush t = false := by decide +kernel
theorem live0_4_second : ∀ t : Fin cfg0.N, t.val % 2 = 1 → cfg0.idle 4 (grid0.coords t) = false := by decide +kernel

/-! ## The staging and scratch buffers as the pipeline passes them -/

abbrev ms0_0 (t : Fin cfg0.N) : Memref sig .tc .vmem S8x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x256 .f32 := win0_4.stage (cfg0.slots t 4)
abbrev hs0_4 (t : Fin cfg0.N) : (ms0_4 t).IsWhole := hstage0_4 ((cfg0.slots t 4).cast nbuf0_4)
/-- The hidden layer's accumulator. -/
abbrev accM : Memref sig .tc .vmem S8x256 .f32 := Memref.whole cc0_scratch0

/-- The scoped buffers the hidden layer's region does not stage, other than its accumulator: the output layer's
    staging buffers, each at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region invariant of a body that names nothing of its own, with the accumulator as a buffer owned at some
    contents. -/
theorem PhiA0_eq (c : Dev nD) :
    (Pipeline.ΦA spec0 c : sProp 𝕄)
      = iprop(iprop((∃ d, owns (c : Thread nD τ) accM fullShare d) ∗ otherScoped c) ∗ (∃ r, prngReg c r)) := by
  unfold Pipeline.ΦA otherScoped; rw [scopedRest0_eq]; simp only [accM, owns_whole]; try rfl

end Cert.KernelIdeal.Hand

end
-- ==== Proof.Ideal.HiddenStep.lean ====
/-
  The hidden layer's body on whole staging buffers, in its two control cases.

  First visit of a tile: with x and the weight tile w in their buffers and anything in the accumulator, it leaves
  the accumulator at x · wᵀ (`accFirst`); nothing else is touched.

  Second visit: with h, the weight tile w, the bias tile b, the accumulator at s and anything in the output buffer,
  it leaves the accumulator at s + h · wᵀ (`accSecond`) and the output buffer at tanh of that plus b (`hiddenTile`).
-/
import proofs.«160519_j69879117906300_1_alg».proof.Proof.Ideal.Tiles

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem hidden_first (c : Dev nD) (E : Set ℕ) (i : grid0.Coords)
    (arg2 : Memref sig .tc .vmem S8x8192 .f32) (harg2 : arg2.IsWhole) (arg3 : Memref sig .tc .vmem S8x8192 .f32) (harg3 : arg3.IsWhole)
    (arg4 : Memref sig .tc .vmem S256x8192 .f32) (harg4 : arg4.IsWhole) (arg5 : Memref sig .tc .vmem S1x256 .f32) (harg5 : arg5.IsWhole)
    (arg6 : Memref sig .tc .vmem S8x256 .f32) (harg6 : arg6.IsWhole) (arg7 : Memref sig .tc .vmem S8x256 .f32) (harg7 : arg7.IsWhole)
    (hc0 : isFirst i) (hc1 : ¬isSecond i)
    (x : Vec F S8x8192 .f32) (w : Vec F S256x8192 .f32) (K : PUnit → sProp 𝕄) :
    iprop(owns (c : Thread nD τ) arg2 fullShare x ∗ owns (c : Thread nD τ) arg4 fullShare w ∗ (∃ d, owns (c : Thread nD τ) arg7 fullShare d)
        ∗ (iprop(owns (c : Thread nD τ) arg2 fullShare x ∗ owns (c : Thread nD τ) arg4 fullShare w
            ∗ owns (c : Thread nD τ) arg7 fullShare (accFirst x w)) -∗ K ⟨⟩))
      ⊢ wp frame (wpE (defs₀ (F := F)) Variants.none c none) E (cc0__i2h_kernel i arg2 harg2 arg3 harg3 arg4 harg4 arg5 harg5 arg6 harg6 arg7 harg7) K := by
  simp only [cc0__i2h_kernel_eq_skeleton]; unfold cc0__i2h_kernel_skel
  unfold owns
  iintro ⟨⟨%f2, %hf2, H2⟩, ⟨%f4, %hf4, H4⟩, ⟨%d7, %f7, -, H7⟩, Hk⟩
  subst hf2; subst hf4
  sl_exec (disch := first | exact hc0 | exact hc1)
  sl_step
  iapply Hk
  isplitl [H2]
  · iexists f2; isplitr; · ipureintro; rfl
    iexact H2
  isplitl [H4]
  · iexists f4; isplitr; · ipureintro; rfl
    iexact H4
  iexists _; isplitr
  swap; · iexact H7
  ipureintro
  rw [View.read_writes_eq_canon _ _ _ (cover_tile _), View.canon_unit_zero zero_offsets]
  simp only [View.readAt_eq_ld, View.ld_unit_zero (S := S8x8192) zero_offsets, View.ld_unit_zero (S := S256x8192) zero_offsets]
  rfl

set_option maxHeartbeats 1000000 in
theorem hidden_second (c : Dev nD) (E : Set ℕ) (i : grid0.Coords)
    (arg2 : Memref sig .tc .vmem S8x8192 .f32) (harg2 : arg2.IsWhole) (arg3 : Memref sig .tc .vmem S8x8192 .f32) (harg3 : arg3.IsWhole)
    (arg4 : Memref sig .tc .vmem S256x8192 .f32) (harg4 : arg4.IsWhole) (arg5 : Memref sig .tc .vmem S1x256 .f32) (harg5 : arg5.IsWhole)
    (arg6 : Memref sig .tc .vmem S8x256 .f32) (harg6 : arg6.IsWhole) (arg7 : Memref sig .tc .vmem S8x256 .f32) (harg7 : arg7.IsWhole)
    (hc0 : ¬isFirst i) (hc1 : isSecond i)
    (h : Vec F S8x8192 .f32) (w : Vec F S256x8192 .f32) (b : Vec F S1x256 .f32) (s : Vec F S8x256 .f32) (K : PUnit → sProp 𝕄) :
    iprop(owns (c : Thread nD τ) arg3 fullShare h ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare h ∗ owns (c : Thread nD τ) arg4 fullShare w ∗ owns (c : Thread nD τ) arg5 fullShare b
            ∗ owns (c : Thread nD τ) arg6 fullShare (hiddenTile s h w b) ∗ owns (c : Thread nD τ) arg7 fullShare (accSecond s h w)) -∗ K ⟨⟩))
      ⊢ wp frame (wpE (defs₀ (F := F)) Variants.none c none) E (cc0__i2h_kernel i arg2 harg2 arg3 harg3 arg4 harg4 arg5 harg5 arg6 harg6 arg7 harg7) K := by
  simp only [cc0__i2h_kernel_eq_skeleton]; unfold cc0__i2h_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  subst hf3; subst hf4; subst hf5; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (cover_tile _), View.canon_unit_zero zero_offsets]
    sl_unfold_words
    simp only [View.readAt_eq_ld, View.ld_unit_zero (S := S8x8192) zero_offsets, View.ld_unit_zero (S := S256x8192) zero_offsets,
      View.ld_unit_zero (S := S1x256) zero_offsets, View.ld_unit_zero (S := S8x256) zero_offsets,
      View.readCov_unit_zero (S := S8x256) _ zero_offsets]
    rfl
  iexists _; isplitr
  swap; · iexact H7
  ipureintro
  sl_unfold_words
  rw [View.read_writes_eq_canon _ _ _ (cover_tile _), View.canon_unit_zero zero_offsets]
  simp only [View.readAt_eq_ld, View.ld_unit_zero (S := S8x8192) zero_offsets, View.ld_unit_zero (S := S256x8192) zero_offsets,
    View.ld_unit_zero (S := S8x256) zero_offsets]
  rfl

end Cert.KernelIdeal.Hand

end
-- ==== Proof.Ideal.HiddenData.lean ====
/-
  The hidden layer's region, point by point. Its grid visits each tile of 256 hidden columns twice in a row: point 2j
  is the first visit of tile j, point 2j + 1 the second. After point n the accumulator holds

      n even:  x · w(n)ᵀ                                   (`accFirst`)
      n odd :  x · w(n − 1)ᵀ + h · w(n)ᵀ                    (`accSecond` over what point n − 1 left)

  where w(n) is the weight window's block at point n (columns 0 … 8191 of the tile's rows at a first visit, columns
  8192 … 16383 at a second). At an odd point the output tile is tanh of that plus the bias block; at an even point the
  body does not touch the output buffer and the pipeline does not write it back.

  The region invariant carries the accumulator at these contents from one point to the next; before the first point
  it is at anything.
-/
import proofs.«160519_j69879117906300_1_alg».proof.Proof.Ideal.Blocks
import proofs.«160519_j69879117906300_1_alg».proof.Proof.Ideal.HiddenStep

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The blocks the body loads, at their literal shapes -/

abbrev xBlk (c : Dev nD) (t : Fin cfg0.N) : Vec F S8x8192 .f32 := iblk0 V c 0 t
abbrev hBlk (c : Dev nD) (t : Fin cfg0.N) : Vec F S8x8192 .f32 := iblk0 V c 1 t
abbrev wBlk (c : Dev nD) (t : Fin cfg0.N) : Vec F S256x8192 .f32 := iblk0 V c 2 t
abbrev bBlk (c : Dev nD) (t : Fin cfg0.N) : Vec F S1x256 .f32 := iblk0 V c 3 t

/-- The point before `n` (the first visit of the tile whose second visit is `n`). -/
abbrev prevPt (n : ℕ) (hn : n < cfg0.N) : Fin cfg0.N := ⟨n - 1, Nat.lt_of_le_of_lt (Nat.sub_le _ _) hn⟩

/-! ## What the accumulator and the output tile hold after each point -/

/-- The first partial product of the tile visited at point `n`. -/
def partialAt (c : Dev nD) (n : ℕ) (hn : n < cfg0.N) : Vec F S8x256 .f32 :=
  accFirst (xBlk V c ⟨n, hn⟩) (wBlk V c ⟨n, hn⟩)

/-- The accumulator after point `n`. -/
def accAt (c : Dev nD) (n : ℕ) (hn : n < cfg0.N) : Vec F S8x256 .f32 :=
  if n % 2 = 0 then partialAt V c n hn
  else accSecond (partialAt V c (n - 1) (Nat.lt_of_le_of_lt (Nat.sub_le _ _) hn)) (hBlk V c ⟨n, hn⟩) (wBlk V c ⟨n, hn⟩)

/-- The output tile after the second visit at point `n` (read only at odd `n`). -/
def hidAt (c : Dev nD) (n : ℕ) (hn : n < cfg0.N) : Vec F S8x256 .f32 :=
  hiddenTile (partialAt V c (n - 1) (Nat.lt_of_le_of_lt (Nat.sub_le _ _) hn)) (hBlk V c ⟨n, hn⟩) (wBlk V c ⟨n, hn⟩) (bBlk V c ⟨n, hn⟩)

theorem accAt_even (c : Dev nD) (n : ℕ) (hn : n < cfg0.N) (h : n % 2 = 0) : accAt V c n hn = partialAt V c n hn := by
  unfold accAt; rw [if_pos h]
theorem accAt_odd (c : Dev nD) (n : ℕ) (hn : n < cfg0.N) (h : ¬n % 2 = 0) :
    accAt V c n hn = accSecond (partialAt V c (n - 1) (Nat.lt_of_le_of_lt (Nat.sub_le _ _) hn)) (hBlk V c ⟨n, hn⟩) (wBlk V c ⟨n, hn⟩) := by
  unfold accAt; rw [if_neg h]

/-! ## The region invariant -/

/-- Before point `n`: at the first point whatever the region was handed; afterwards the accumulator at what the point
    before left, the other scoped buffers at anything and the generator register at some state. -/
def PhiS (c : Dev nD) : (n : ℕ) → n ≤ cfg0.N → sProp 𝕄
  | 0, _ => Pipeline.ΦA spec0 c
  | n + 1, hn => iprop(iprop(owns (c : Thread nD τ) accM fullShare (accAt V c n hn) ∗ otherScoped c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare (accAt V c n hn) ∗ otherScoped c) ∗ (∃ r, prngReg c r)) := rfl
theorem PhiS_pos (c : Dev nD) (n : ℕ) (h : n ≤ cfg0.N) (hz : n ≠ 0) :
    PhiS V c n h = iprop(iprop(owns (c : Thread nD τ) accM fullShare (accAt V c (n - 1) (by omega)) ∗ otherScoped c) ∗ (∃ r, prngReg c r)) := by
  cases n with
  | zero => exact absurd rfl hz
  | succ n => rfl

/-! ## The proof data -/

/-- The arrays as the region finds them; each input's buffer left at its block; the output's at the hidden tile; the
    invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => hidAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = hidAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

theorem Phi_castSucc (c : Dev nD) (t : Fin cfg0.N) :
    (dat0 V c).Φ t.castSucc = PhiS V c t.val (Nat.le_of_lt t.isLt) := by
  dsimp only [dat0]; simp only [Fin.coe_castSucc]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4000000 in
/-- At a first visit the body is handed x and the weight block and leaves the first partial product in the accumulator;
    at a second visit it is handed h, the weight block, the bias block and the accumulator at the first partial
    product, and leaves the sum in the accumulator and the hidden tile in the output buffer. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  have hN : t.val < 64 := lt_of_lt_of_eq t.isLt (show cfg0.N = 64 from N_0)
  by_cases h0 : t.val % 2 = 0
  · have h1 : ¬t.val % 2 = 1 := by omega
    rw [Dat.leavesExact_idle (dat0 V c) 4 t (idle0_4_first t h0) (noFlush0_4_first t h0)]
    rw [accAt_even V c t.val t.isLt h0]
    unfold partialAt
    by_cases hz : t.val = 0
    · rw [Phi_castSucc V c t, PhiS_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply (hidden_first c Set.univ (grid0.coords t) (ms0_0 t) (hs0_0 t) (ms0_1 t) (hs0_1 t) (ms0_2 t) (hs0_2 t) (ms0_3 t) (hs0_3 t) (ms0_4 t) (hs0_4 t) accM (Memref.isWhole_whole _)
        ((isFirst_iff t).mpr h0) (fun h => h1 ((isSecond_iff t).mp h)) (xBlk V c t) (wBlk V c t) _)
      isplitl [H0]; · iexact H0
      isplitl [H2]; · iexact H2
      isplitl [HS]; · iexact HS
      iintro ⟨H0, H2, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists d4; iexact H4
    · rw [Phi_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (hidden_first c Set.univ (grid0.coords t) (ms0_0 t) (hs0_0 t) (ms0_1 t) (hs0_1 t) (ms0_2 t) (hs0_2 t) (ms0_3 t) (hs0_3 t) (ms0_4 t) (hs0_4 t) accM (Memref.isWhole_whole _)
        ((isFirst_iff t).mpr h0) (fun h => h1 ((isSecond_iff t).mp h)) (xBlk V c t) (wBlk V c t) _)
      isplitl [H0]; · iexact H0
      isplitl [H2]; · iexact H2
      isplitl [HS]; · iexists _; iexact HS
      iintro ⟨H0, H2, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists d4; iexact H4
  · have h1 : t.val % 2 = 1 := by omega
    have hz : t.val ≠ 0 := by omega
    rw [show (dat0 V c).leavesExact 4 t = owns (c : Thread nD τ) (ms0_4 t) fullShare ((dat0 V c).after 4 t) from by
      unfold Dat.leavesExact; rw [live0_4_second t h1], after0_4]
    rw [accAt_odd V c t.val t.isLt h0]
    unfold hidAt
    rw [Phi_castSucc V c t, PhiS_pos V c _ _ hz, accAt_even V c (t.val - 1) _ (by omega)]
    iintro ⟨⟨⟨HS, HR⟩, Hg⟩, Ho, ⟨%d0, H0⟩, ⟨%d1, H1⟩, ⟨%d2, H2⟩, ⟨%d3, H3⟩, ⟨%d4, H4⟩⟩
    iapply (hidden_second c Set.univ (grid0.coords t) (ms0_0 t) (hs0_0 t) (ms0_1 t) (hs0_1 t) (ms0_2 t) (hs0_2 t) (ms0_3 t) (hs0_3 t) (ms0_4 t) (hs0_4 t) accM (Memref.isWhole_whole _)
      (fun h => h0 ((isFirst_iff t).mp h)) ((isSecond_iff t).mpr h1) (hBlk V c t) (wBlk V c t) (bBlk V c t)
      (partialAt V c (t.val - 1) (Nat.lt_of_le_of_lt (Nat.sub_le _ _) t.isLt)) _)
    isplitl [H1]; · iexact H1
    isplitl [H2]; · iexact H2
    isplitl [H3]; · iexact H3
    isplitl [H4]; · iexists _; iexact H4
    isplitl [HS]; · iexact HS
    iintro ⟨H1, H2, H3, H4, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4

/-- The body obligation at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point, -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back, the accumulator's contents forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl,
    PhiS_pos V c _ _ hne, PhiA0_eq]
  iintro ⟨⟨HS, HR⟩, Hg⟩
  isplitr [Hg]
  · isplitl [HS]; · iexists _; iexact HS
    iexact HR
  iexact Hg

end

end Cert.KernelIdeal.Hand

end
-- ==== Proof.Ideal.OutputStep.lean ====
/-
  The output layer's body on whole staging buffers: with the hidden rows x, the weight tile w and the bias tile b
  in its three input buffers and anything in its output buffer, it runs to the end leaving the inputs as they
  were and the output buffer at x · wᵀ + b (`outTile`).
-/
import proofs.«160519_j69879117906300_1_alg».proof.Proof.Ideal.Tiles

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem output_step (c : Dev nD) (E : Set ℕ) (i : grid1.Coords)
    (arg1 : Memref sig .tc .vmem S8x8192 .f32) (harg1 : arg1.IsWhole) (arg2 : Memref sig .tc .vmem S256x8192 .f32) (harg2 : arg2.IsWhole)
    (arg3 : Memref sig .tc .vmem S1x256 .f32) (harg3 : arg3.IsWhole) (arg4 : Memref sig .tc .vmem S8x256 .f32) (harg4 : arg4.IsWhole)
    (x : Vec F S8x8192 .f32) (w : Vec F S256x8192 .f32) (b : Vec F S1x256 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (outTile x w b)) -∗ K ⟨⟩))
      ⊢ wp frame (wpE (defs₀ (F := F)) Variants.none c none) E (cc1__h2o_kernel i arg1 harg1 arg2 harg2 arg3 harg3 arg4 harg4) K := by
  simp only [cc1__h2o_kernel_eq_skeleton]; unfold cc1__h2o_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover_tile _), View.canon_unit_zero zero_offsets]
  simp only [View.readAt_eq_ld, View.ld_unit_zero (S := S8x8192) zero_offsets, View.ld_unit_zero (S := S256x8192) zero_offsets,
    View.ld_unit_zero (S := S1x256) zero_offsets]
  rfl

end Cert.KernelIdeal.Hand

end
-- ==== Proof.Ideal.OutputData.lean ====
/-
  The output layer's region. Its grid has one point per tile of 256 output columns; at point t the body is handed the
  hidden rows (the whole array, fetched once), the weight block and the bias block of tile t, and leaves
  hidden · w(t)ᵀ + b(t) in the output buffer, which the pipeline writes back at every point. The body keeps nothing
  between points.
-/
import proofs.«160519_j69879117906300_1_alg».proof.Proof.Ideal.Blocks
import proofs.«160519_j69879117906300_1_alg».proof.Proof.Ideal.OutputStep

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The blocks the body loads, at their literal shapes -/

abbrev hidBlk (c : Dev nD) (t : Fin cfg1.N) : Vec F S8x8192 .f32 := iblk1 V c 0 t
abbrev woBlk (c : Dev nD) (t : Fin cfg1.N) : Vec F S256x8192 .f32 := iblk1 V c 1 t
abbrev boBlk (c : Dev nD) (t : Fin cfg1.N) : Vec F S1x256 .f32 := iblk1 V c 2 t

/-- The output tile at point `t`. -/
def outAt (c : Dev nD) (t : Fin cfg1.N) : Vec F S8x256 .f32 :=
  outTile (hidBlk V c t) (woBlk V c t) (boBlk V c t)

/-- The arrays as the region finds them; each input's buffer left at its block; the output's at the output tile; the
    invariant of a body that names nothing of its own; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
/-- At every point the input buffers hold their blocks, so the body's run applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold outAt
  iintro ⟨HΦ, Ho, ⟨%d0, H0⟩, ⟨%d1, H1⟩, ⟨%d2, H2⟩, ⟨%d3, H3⟩⟩
  iapply (output_step c Set.univ (grid1.coords t) _ _ _ _ _ _ _ _ (hidBlk V c t) (woBlk V c t) (boBlk V c t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.Ideal.Program.lean ====
/-
  The whole program on one TensorCore: two reshapes of the bias vectors on the host, the hidden layer's region, the
  output layer's region. Between two of these the core's unscoped buffers are held whole at contents we name:

      W0  the launch memory;
      W1  after the reshapes (the two [1, n] bias rows written);
      W2  after the hidden layer's region: its output array at what the pipeline's write-backs leave, all else as W1;
      W3  after the output layer's region: its output array likewise, all else as W2.

  Each region is entered with its windows' arrays split out of the held buffers and left with them put back at the
  exit contents; the generator register rides along at some state and the core owes nothing throughout. The run ends
  with every unscoped buffer holding W3, from which both the frame (each argument array is never written, so W3 there
  is the launch memory) and the result's contents are read.
-/
import proofs.«160519_j69879117906300_1_alg».proof.Proof.Ideal.HiddenData
import proofs.«160519_j69879117906300_1_alg».proof.Proof.Ideal.OutputData
import proofs.«160519_j69879117906300_1_alg».proof.Proof.Gen.KernelIdeal.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c => Gen.V0 m c
abbrev W1 : Dev nD → Valuation τ sig (Elt F) := fun c => Gen.V1 m c
/-- `W1` read at the TensorCore's references: what the hidden layer's proof data take. -/
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- `W2` read at the TensorCore's references: what the output layer's proof data take. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## No item writes an argument: at an argument's buffer the last contents walk back to the launch memory -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := Gen.V1_of m c main_arg0 (by decide)
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := Gen.V1_of m c main_arg1 (by decide)
    _ = m ((c : Thread nD τ).loc main_arg1) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 2).trans (((dat0 (V1 m) c).arrAt_in 2 rfl _).trans (A_eq0 (V1 m) c 2))
    _ = W0 m c (Proc.devRef .tc main_arg2) := Gen.V1_of m c main_arg2 (by decide)
    _ = m ((c : Thread nD τ).loc main_arg2) := rfl

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := Gen.V1_of m c main_arg3 (by decide)
    _ = m ((c : Thread nD τ).loc main_arg3) := rfl

theorem W3_main_arg4 (c : Dev nD) : W3 m c (Proc.devRef .tc main_arg4) = m ((c : Thread nD τ).loc main_arg4) :=
  calc W3 m c (Proc.devRef .tc main_arg4)
    _ = W2 m c (Proc.devRef .tc main_arg4) := (W3_arr m c 1).trans (((dat1 (V2 m) c).arrAt_in 1 rfl _).trans (A_eq1 (V2 m) c 1))
    _ = W1 m c (Proc.devRef .tc main_arg4) := W2_of_ne m c main_arg4 (by decide)
    _ = W0 m c (Proc.devRef .tc main_arg4) := Gen.V1_of m c main_arg4 (by decide)
    _ = m ((c : Thread nD τ).loc main_arg4) := rfl

theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := Gen.V1_of m c main_arg5 (by decide)
    _ = m ((c : Thread nD τ).loc main_arg5) := rfl

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-- The reshapes as a segment over the held buffers. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (W0 m) R

/-! ## The regions as segments -/

set_option backward.isDefEq.respectTransparency.types false in
/-- The hidden layer's region: entered from every unscoped buffer at `W1`, left at `W2`. The generator register goes
    into the region's invariant and comes back; the accumulator's final contents are forgotten at the exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output layer's region: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hostSeg m), .region (reg0 m), .region (reg1 m) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every final memory holds `W3` in every unscoped buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Hand

end
-- ==== Proof.Ideal.Frame.lean ====
/-
  What the run leaves where the claims look: each argument array as launched (no item writes one), and the result
  array at what the output layer's write-backs leave in it.
-/
import proofs.«160519_j69879117906300_1_alg».proof.Proof.Ideal.Program

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array and the six arguments after the run. -/
theorem run_result : θ_run defs (onTc (τ := τ) (main (F := F))) ⟨m, fun _ => 0, ρ⟩ (fun r => ∀ c : Dev nD,
      r.2.mem ((c.tc : Thread nD τ).loc main_v3) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v3 (by decide))).trans (W3_arr m c 3),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_all m ρ)

/-- The frame: the program runs to the end, nothing faulting, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_result m ρ)

end Cert.KernelIdeal.Hand

end
-- ==== Proof.Ideal.BlockReads.lean ====
/-
  Where a block's element sits in its array. Point t of the hidden layer's grid is visit t % 2 of tile t / 2, so:
  the input rows' windows are the whole arrays; the weight window's block is rows 256·(t / 2) … of columns
  8192·(t % 2) … of the weight matrix; the bias and output windows' blocks are columns 256·(t / 2) … of their rows.
  Point t of the output layer's grid is tile t: the hidden rows whole, rows 256·t … of the output weights, columns
  256·t … of the bias row and of the result.
-/
import proofs.«160519_j69879117906300_1_alg».proof.Proof.Ideal.Blocks
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section
variable (V : (c : Dev nD) → (b : Ref sig .tc) → Buf (Elt F) ((c : Thread nD τ).loc b))

/-! ## The index maps, decided over the grids -/

theorem idx0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val / 2 ∧ win0_2.index t (1 : Fin 2) = t.val % 2
    ∧ win0_3.index t (0 : Fin 2) = 0 ∧ win0_3.index t (1 : Fin 2) = t.val / 2
    ∧ win0_4.index t (0 : Fin 2) = 0 ∧ win0_4.index t (1 : Fin 2) = t.val / 2 :=
  (by decide +kernel : ∀ t : Fin grid0.N, _)

theorem idx1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

theorem tile_lt (t : Fin cfg0.N) (q : Fin 256) : 256 * (t.val / 2) + q.val < 8192 := by
  have hN : t.val < 64 := lt_of_lt_of_eq t.isLt (show cfg0.N = 64 from N_0); have := q.isLt; omega
theorem half_lt (t : Fin cfg0.N) (k : Fin 8192) : 8192 * (t.val % 2) + k.val < 16384 := by
  have := k.isLt; omega
theorem otile_lt (t : Fin cfg1.N) (q : Fin 256) : 256 * t.val + q.val < 2048 := by
  have hN : t.val < 8 := lt_of_lt_of_eq t.isLt (show cfg1.N = 8 from N_1); have := q.isLt; omega

/-! ## The hidden layer's blocks -/

theorem xBlk_apply (c : Dev nD) (t : Fin cfg0.N) (p : Fin 8) (k : Fin 8192) :
    iblk0 V c 0 t (ix2 p k) = V c main_arg0 (ix2 p k) := by
  obtain ⟨e0, e1, -⟩ := idx0 t
  show V c main_arg0 (((cfg0.win 0).blk t).view.emb (ix2 p k)) = _
  congr 1; funext a; apply Fin.ext
  match a with
  | ⟨0, _⟩ => show win0_0.index t (0 : Fin 2) * 8 + 1 * p.val = p.val; omega
  | ⟨1, _⟩ => show win0_0.index t (1 : Fin 2) * 8192 + 1 * k.val = k.val; omega

theorem hBlk_apply (c : Dev nD) (t : Fin cfg0.N) (p : Fin 8) (k : Fin 8192) :
    iblk0 V c 1 t (ix2 p k) = V c main_arg1 (ix2 p k) := by
  obtain ⟨-, -, e0, e1, -⟩ := idx0 t
  show V c main_arg1 (((cfg0.win 1).blk t).view.emb (ix2 p k)) = _
  congr 1; funext a; apply Fin.ext
  match a with
  | ⟨0, _⟩ => show win0_1.index t (0 : Fin 2) * 8 + 1 * p.val = p.val; omega
  | ⟨1, _⟩ => show win0_1.index t (1 : Fin 2) * 8192 + 1 * k.val = k.val; omega

theorem wBlk_apply (c : Dev nD) (t : Fin cfg0.N) (q : Fin 256) (k : Fin 8192) :
    iblk0 V c 2 t (ix2 q k)
      = V c main_arg2 (ix2 (⟨256 * (t.val / 2) + q.val, tile_lt t q⟩ : Fin 8192) (⟨8192 * (t.val % 2) + k.val, half_lt t k⟩ : Fin 16384)) := by
  obtain ⟨-, -, -, -, e0, e1, -⟩ := idx0 t
  show V c main_arg2 (((cfg0.win 2).blk t).view.emb (ix2 q k)) = _
  congr 1; funext a; apply Fin.ext
  match a with
  | ⟨0, _⟩ => show win0_2.index t (0 : Fin 2) * 256 + 1 * q.val = 256 * (t.val / 2) + q.val; omega
  | ⟨1, _⟩ => show win0_2.index t (1 : Fin 2) * 8192 + 1 * k.val = 8192 * (t.val % 2) + k.val; omega

theorem bBlk_apply (c : Dev nD) (t : Fin cfg0.N) (q : Fin 256) :
    iblk0 V c 3 t (ix2 (0 : Fin 1) q) = V c main_v0 (ix2 (0 : Fin 1) (⟨256 * (t.val / 2) + q.val, tile_lt t q⟩ : Fin 8192)) := by
  obtain ⟨-, -, -, -, -, -, e0, e1, -⟩ := idx0 t
  show V c main_v0 (((cfg0.win 3).blk t).view.emb (ix2 (0 : Fin 1) q)) = _
  congr 1; funext a; apply Fin.ext
  match a with
  | ⟨0, _⟩ => show win0_3.index t (0 : Fin 2) * 1 + 1 * 0 = 0; omega
  | ⟨1, _⟩ => show win0_3.index t (1 : Fin 2) * 256 + 1 * q.val = 256 * (t.val / 2) + q.val; omega

/-- An element of the output window's block at point t, in the hidden array. -/
theorem hidEmb (t : Fin cfg0.N) (p : Fin 8) (q : Fin 256) :
    ((cfg0.win 4).blk t).view.emb (ix2 p q) = ix2 p (⟨256 * (t.val / 2) + q.val, tile_lt t q⟩ : Fin 8192) := by
  obtain ⟨-, -, -, -, -, -, -, -, e0, e1⟩ := idx0 t
  funext a; apply Fin.ext
  match a with
  | ⟨0, _⟩ => show win0_4.index t (0 : Fin 2) * 8 + 1 * p.val = p.val; omega
  | ⟨1, _⟩ => show win0_4.index t (1 : Fin 2) * 256 + 1 * q.val = 256 * (t.val / 2) + q.val; omega

/-! ## The output layer's blocks -/

theorem hidBlk_apply (c : Dev nD) (t : Fin cfg1.N) (p : Fin 8) (k : Fin 8192) :
    iblk1 V c 0 t (ix2 p k) = V c main_v2 (ix2 p k) := by
  obtain ⟨e0, e1, -⟩ := idx1 t
  show V c main_v2 (((cfg1.win 0).blk t).view.emb (ix2 p k)) = _
  congr 1; funext a; apply Fin.ext
  match a with
  | ⟨0, _⟩ => show win1_0.index t (0 : Fin 2) * 8 + 1 * p.val = p.val; omega
  | ⟨1, _⟩ => show win1_0.index t (1 : Fin 2) * 8192 + 1 * k.val = k.val; omega

theorem woBlk_apply (c : Dev nD) (t : Fin cfg1.N) (q : Fin 256) (k : Fin 8192) :
    iblk1 V c 1 t (ix2 q k) = V c main_arg4 (ix2 (⟨256 * t.val + q.val, otile_lt t q⟩ : Fin 2048) k) := by
  obtain ⟨-, -, e0, e1, -⟩ := idx1 t
  show V c main_arg4 (((cfg1.win 1).blk t).view.emb (ix2 q k)) = _
  congr 1; funext a; apply Fin.ext
  match a with
  | ⟨0, _⟩ => show win1_1.index t (0 : Fin 2) * 256 + 1 * q.val = 256 * t.val + q.val; omega
  | ⟨1, _⟩ => show win1_1.index t (1 : Fin 2) * 8192 + 1 * k.val = k.val; omega

theorem boBlk_apply (c : Dev nD) (t : Fin cfg1.N) (q : Fin 256) :
    iblk1 V c 2 t (ix2 (0 : Fin 1) q) = V c main_v1 (ix2 (0 : Fin 1) (⟨256 * t.val + q.val, otile_lt t q⟩ : Fin 2048)) := by
  obtain ⟨-, -, -, -, e0, e1, -⟩ := idx1 t
  show V c main_v1 (((cfg1.win 2).blk t).view.emb (ix2 (0 : Fin 1) q)) = _
  congr 1; funext a; apply Fin.ext
  match a with
  | ⟨0, _⟩ => show win1_2.index t (0 : Fin 2) * 1 + 1 * 0 = 0; omega
  | ⟨1, _⟩ => show win1_2.index t (1 : Fin 2) * 256 + 1 * q.val = 256 * t.val + q.val; omega

/-- An element of the result window's block at point t, in the result array. -/
theorem outEmb (t : Fin cfg1.N) (p : Fin 8) (q : Fin 256) :
    ((cfg1.win 3).blk t).view.emb (ix2 p q) = ix2 p (⟨256 * t.val + q.val, otile_lt t q⟩ : Fin 2048) := by
  obtain ⟨-, -, -, -, -, -, e0, e1⟩ := idx1 t
  funext a; apply Fin.ext
  match a with
  | ⟨0, _⟩ => show win1_3.index t (0 : Fin 2) * 8 + 1 * p.val = p.val; omega
  | ⟨1, _⟩ => show win1_3.index t (1 : Fin 2) * 256 + 1 * q.val = 256 * t.val + q.val; omega

end

end Cert.KernelIdeal.Hand

end
-- ==== Proof.Ideal.TileValues.lean ====
/-
  The four tile functions of the two kernel bodies, read at an index (p, q) of the [8, 256] tile, at the ideal
  values (extended reals).

  Each body contracts an [8, 8192] block of rows against a [256, 8192] block of weights along the axis of length
  8192 into a zero accumulator: at (p, q) that is the sum over k of x (p, k) * w (q, k). The narrowing of both
  operands to the shorter format is the identity at the ideal values, a cast to the same shape is the identity,
  and the [1, 256] bias row broadcast over the 8 rows reads its row 0 at column q. So

    accFirst  x w     (p, q) = ∑ k, x (p, k) * w (q, k)
    accSecond s h w   (p, q) = s (p, q) + ∑ k, h (p, k) * w (q, k)
    hiddenTile s h w b (p, q) = tanh ((s (p, q) + ∑ k, h (p, k) * w (q, k)) + b (0, q))
    outTile   x w b   (p, q) = (∑ k, x (p, k) * w (q, k)) + b (0, q)
-/
import proofs.«160519_j69879117906300_1_alg».proof.Proof.Ideal.Tiles
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

/-! ## The contraction's operand indices, axis by axis -/

/-- The left operand's row is the result's row. -/
theorem lhs_mm_0 (i : S8x256.Idx) (c : dot_S8x8192_S256x8192_S8x256_1_1_0_0_n_n.contr.Idx) :
    (dot_S8x8192_S256x8192_S8x256_1_1_0_0_n_n.lhsIdx i c 0).val = (i 0).val := by
  unfold DotDims.lhsIdx
  rw [dif_neg (show ¬(0 : Fin S8x8192.rank) ∈ dot_S8x8192_S256x8192_S8x256_1_1_0_0_n_n.lhsBatch by decide), dif_pos (show (0 : Fin S8x8192.rank) ∈ dot_S8x8192_S256x8192_S8x256_1_1_0_0_n_n.lhsNonContracting by decide)]
  rfl
/-- The left operand's column is the contraction position. -/
theorem lhs_mm_1 (i : S8x256.Idx) (c : dot_S8x8192_S256x8192_S8x256_1_1_0_0_n_n.contr.Idx) :
    (dot_S8x8192_S256x8192_S8x256_1_1_0_0_n_n.lhsIdx i c 1).val = (c ⟨0, by decide⟩).val :=
  dot_S8x8192_S256x8192_S8x256_1_1_0_0_n_n.lhsIdx_val_of_single rfl i c
/-- The right operand's row is the result's column. -/
theorem rhs_mm_0 (i : S8x256.Idx) (c : dot_S8x8192_S256x8192_S8x256_1_1_0_0_n_n.contr.Idx) :
    (dot_S8x8192_S256x8192_S8x256_1_1_0_0_n_n.rhsIdx i c 0).val = (i 1).val := by
  unfold DotDims.rhsIdx
  rw [dif_neg (show ¬(0 : Fin S256x8192.rank) ∈ dot_S8x8192_S256x8192_S8x256_1_1_0_0_n_n.rhsBatch by decide), dif_pos (show (0 : Fin S256x8192.rank) ∈ dot_S8x8192_S256x8192_S8x256_1_1_0_0_n_n.rhsNonContracting by decide)]
  rfl
/-- The right operand's column is the contraction position. -/
theorem rhs_mm_1 (i : S8x256.Idx) (c : dot_S8x8192_S256x8192_S8x256_1_1_0_0_n_n.contr.Idx) :
    (dot_S8x8192_S256x8192_S8x256_1_1_0_0_n_n.rhsIdx i c 1).val = (c ⟨0, by decide⟩).val :=
  dot_S8x8192_S256x8192_S8x256_1_1_0_0_n_n.rhsIdx_val_of_single rfl i c

/-! ## The contraction into a zero accumulator, at an index -/

/-- The product of an [8, 8192] block and the transpose of a [256, 8192] block, at (p, q). -/
theorem mm_apply (l : FVec Ideal S8x8192 .bf16) (r : FVec Ideal S256x8192 .bf16) (p : Fin 8) (q : Fin 256) :
    matmul (F := Ideal) dot_S8x8192_S256x8192_S8x256_1_1_0_0_n_n none l r (constant (F := Ideal) S8x256 .f32 0x00000000#32) (ix2 p q)
      = ∑ k : Fin 8192, l (ix2 p k) * r (ix2 q k) := by
  show FloatOps.matmul dot_S8x8192_S256x8192_S8x256_1_1_0_0_n_n none l r (constant (F := Ideal) S8x256 .f32 0x00000000#32) (ix2 p q) = _
  rw [Ideal.matmul_constant_zero_apply, ← Equiv.sum_comp (ValueIdx.contrEquiv1 dot_S8x8192_S256x8192_S8x256_1_1_0_0_n_n 8192 rfl rfl).symm]
  refine Finset.sum_congr rfl fun k _ => ?_
  have hk := ValueIdx.contrEquiv1_symm_val dot_S8x8192_S256x8192_S8x256_1_1_0_0_n_n 8192 rfl rfl k
  have el : dot_S8x8192_S256x8192_S8x256_1_1_0_0_n_n.lhsIdx (ix2 p q) ((ValueIdx.contrEquiv1 dot_S8x8192_S256x8192_S8x256_1_1_0_0_n_n 8192 rfl rfl).symm k) = ix2 p k := funext fun a => Fin.ext (by
    match a with
    | ⟨0, _⟩ => exact lhs_mm_0 _ _
    | ⟨1, _⟩ => exact (lhs_mm_1 _ _).trans hk)
  have er : dot_S8x8192_S256x8192_S8x256_1_1_0_0_n_n.rhsIdx (ix2 p q) ((ValueIdx.contrEquiv1 dot_S8x8192_S256x8192_S8x256_1_1_0_0_n_n 8192 rfl rfl).symm k) = ix2 q k := funext fun a => Fin.ext (by
    match a with
    | ⟨0, _⟩ => exact rhs_mm_0 _ _
    | ⟨1, _⟩ => exact (rhs_mm_1 _ _).trans hk)
  rw [el, er]

/-! ## The four tiles at an index -/

/-- The first partial product. -/
theorem accFirst_apply (x : Vec Ideal S8x8192 .f32) (w : Vec Ideal S256x8192 .f32) (p : Fin 8) (q : Fin 256) :
    accFirst (F := Ideal) x w (ix2 p q) = ∑ k : Fin 8192, x (ix2 p k) * w (ix2 q k) := by
  unfold accFirst k0_pay1
  refine (congrFun (shapeCast_self _ shapeCasts_S8x256_S8x256) (ix2 p q)).trans ?_
  exact mm_apply x w p q

/-- The accumulator after the second partial product is added. -/
theorem accSecond_apply (s : Vec Ideal S8x256 .f32) (h : Vec Ideal S8x8192 .f32) (w : Vec Ideal S256x8192 .f32) (p : Fin 8) (q : Fin 256) :
    accSecond (F := Ideal) s h w (ix2 p q) = s (ix2 p q) + ∑ k : Fin 8192, h (ix2 p k) * w (ix2 q k) := by
  unfold accSecond k0_pay2
  refine (congrFun (shapeCast_self _ shapeCasts_S8x256_S8x256) (ix2 p q)).trans ?_
  exact congrArg (fun t => s (ix2 p q) + t) (mm_apply h w p q)

/-- The hidden tile. -/
theorem hiddenTile_apply (s : Vec Ideal S8x256 .f32) (h : Vec Ideal S8x8192 .f32) (w : Vec Ideal S256x8192 .f32) (b : Vec Ideal S1x256 .f32) (p : Fin 8) (q : Fin 256) :
    hiddenTile (F := Ideal) s h w b (ix2 p q)
      = Ideal.tanh ((s (ix2 p q) + ∑ k : Fin 8192, h (ix2 p k) * w (ix2 q k)) + b (ix2 (0 : Fin 1) q)) := by
  unfold hiddenTile k0_pay3
  have hb : broadcastTo S8x256 (shapeCast S1x256 b shapeCasts_S1x256_S1x256) broadcasts_S1x256_S8x256 (ix2 p q) = b (ix2 (0 : Fin 1) q) :=
    (broadcastTo_1b_ab_apply _ broadcasts_S1x256_S8x256 p q).trans
      (congrFun (shapeCast_self b shapeCasts_S1x256_S1x256) (ix2 (0 : Fin 1) q))
  show Ideal.tanh (accSecond (F := Ideal) s h w (ix2 p q)
      + broadcastTo S8x256 (shapeCast S1x256 b shapeCasts_S1x256_S1x256) broadcasts_S1x256_S8x256 (ix2 p q)) = _
  exact congrArg Ideal.tanh (congrArg₂ (· + ·) (accSecond_apply s h w p q) hb)

/-- The output tile. -/
theorem outTile_apply (x : Vec Ideal S8x8192 .f32) (w : Vec Ideal S256x8192 .f32) (b : Vec Ideal S1x256 .f32) (p : Fin 8) (q : Fin 256) :
    outTile (F := Ideal) x w b (ix2 p q) = (∑ k : Fin 8192, x (ix2 p k) * w (ix2 q k)) + b (ix2 (0 : Fin 1) q) := by
  unfold outTile k1_pay1
  have hb : broadcastTo S8x256 (shapeCast S1x256 b shapeCasts_S1x256_S1x256) broadcasts_S1x256_S8x256 (ix2 p q) = b (ix2 (0 : Fin 1) q) :=
    (broadcastTo_1b_ab_apply _ broadcasts_S1x256_S8x256 p q).trans
      (congrFun (shapeCast_self b shapeCasts_S1x256_S1x256) (ix2 (0 : Fin 1) q))
  have hx : shapeCast S8x8192 x shapeCasts_S8x8192_S8x8192 = x := shapeCast_self x shapeCasts_S8x8192_S8x8192
  show matmul (F := Ideal) dot_S8x8192_S256x8192_S8x256_1_1_0_0_n_n none (shapeCast S8x8192 x shapeCasts_S8x8192_S8x8192) w (constant (F := Ideal) S8x256 .f32 0x00000000#32) (ix2 p q)
      + broadcastTo S8x256 (shapeCast S1x256 b shapeCasts_S1x256_S1x256) broadcasts_S1x256_S8x256 (ix2 p q) = _
  refine congrArg₂ (· + ·) ?_ hb
  refine (mm_apply (shapeCast S8x8192 x shapeCasts_S8x8192_S8x8192) w p q).trans ?_
  exact Finset.sum_congr rfl fun k _ => congrArg (· * w (ix2 q k)) (congrFun hx (ix2 p k))

end Cert.KernelIdeal.Hand

end
-- ==== Proof.Spec.lean ====
/-
  What the program computes, as one function of its six argument arrays over the extended reals:

      hidden[p, r] = tanh ( ( Σₖ x[p, k] · W[r, k]  +  Σₖ h[p, k] · W[r, 8192 + k] )  +  b₁[r] )
      out[p, o]    =  Σₖ hidden[p, k] · Wₒ[o, k]  +  b₂[o]

  for p < 8, r < 8192, o < 2048, the sums over k < 8192. The weight matrix W is [8192, 16384]: its left half multiplies
  the input rows x, its right half the previous hidden rows h. The sums are grouped as written (first the two partial
  products, then the bias), which is how both programs group them, so no law of the extended reals is needed to compare.
-/
import Idealize.ShloMosaic.PureOps.Ideal
import Idealize.ShloMosaic.Lib.ValueIdx

noncomputable section

namespace Cert.Spec

open Idealize.ShloMosaic Idealize.ShloMosaic.ValueIdx

abbrev Rows : Shape := ⟨2, ![8, 8192]⟩
abbrev Weights : Shape := ⟨2, ![8192, 16384]⟩
abbrev Bias : Shape := ⟨1, ![8192]⟩
abbrev OutWeights : Shape := ⟨2, ![2048, 8192]⟩
abbrev OutBias : Shape := ⟨1, ![2048]⟩
abbrev Result : Shape := ⟨2, ![8, 2048]⟩

/-- Column k of the weight matrix's left half, -/
def lo (k : Fin 8192) : Fin 16384 := ⟨k.val, by have := k.isLt; omega⟩
/-- and of its right half. -/
def hi (k : Fin 8192) : Fin 16384 := ⟨8192 + k.val, by have := k.isLt; omega⟩

/-- The first partial product at (p, r). -/
def part₁ (x : Rows.Idx → EReal) (W : Weights.Idx → EReal) (p : Fin 8) (r : Fin 8192) : EReal :=
  ∑ k : Fin 8192, x (ix2 p k) * W (ix2 r (lo k))
/-- The second partial product at (p, r). -/
def part₂ (h : Rows.Idx → EReal) (W : Weights.Idx → EReal) (p : Fin 8) (r : Fin 8192) : EReal :=
  ∑ k : Fin 8192, h (ix2 p k) * W (ix2 r (hi k))

/-- The hidden layer at (p, r). -/
def hidden (x h : Rows.Idx → EReal) (W : Weights.Idx → EReal) (b₁ : Bias.Idx → EReal) (p : Fin 8) (r : Fin 8192) : EReal :=
  Ideal.tanh ((part₁ x W p r + part₂ h W p r) + b₁ (ix1 r))

/-- The output layer at (p, o). -/
def outputAt (x h : Rows.Idx → EReal) (W : Weights.Idx → EReal) (b₁ : Bias.Idx → EReal)
    (Wo : OutWeights.Idx → EReal) (b₂ : OutBias.Idx → EReal) (p : Fin 8) (o : Fin 2048) : EReal :=
  (∑ k : Fin 8192, hidden x h W b₁ p k * Wo (ix2 o k)) + b₂ (ix1 o)

/-- The hidden layer as an array. -/
def hiddenArr (x h : Rows.Idx → EReal) (W : Weights.Idx → EReal) (b₁ : Bias.Idx → EReal) : Rows.Idx → EReal :=
  fun i => hidden x h W b₁ (i 0) (i 1)

/-- The result as an array. -/
def output (x h : Rows.Idx → EReal) (W : Weights.Idx → EReal) (b₁ : Bias.Idx → EReal)
    (Wo : OutWeights.Idx → EReal) (b₂ : OutBias.Idx → EReal) : Result.Idx → EReal :=
  fun i => outputAt x h W b₁ Wo b₂ (i 0) (i 1)

end Cert.Spec

end
-- ==== Proof.Ideal.HiddenValue.lean ====
/-
  The hidden array after its region, over the extended reals. The second visit of tile j (point 2j + 1) writes back

      tanh ( ( Σₖ x[p, k] · W[256 j + q, k]  +  Σₖ h[p, k] · W[256 j + q, 8192 + k] )  +  b[0, 256 j + q] )

  at (p, q) of the tile: the first partial product was left in the accumulator by the first visit, whose weight block is
  the left half of the same rows; the second visit's weight block is the right half. That is block j of ONE function of
  the arrays the region is entered with, and the 32 tiles cover the hidden array, so the array ends holding it.
-/
import proofs.«160519_j69879117906300_1_alg».proof.Proof.Ideal.HiddenData
import proofs.«160519_j69879117906300_1_alg».proof.Proof.Ideal.BlockReads
import proofs.«160519_j69879117906300_1_alg».proof.Proof.Ideal.TileValues
import proofs.«160519_j69879117906300_1_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-- The hidden layer over the arrays the region finds: the input rows X, the previous hidden rows H, the weights Wm and
    the bias as a [1, 8192] row B. -/
def hidG (X H : S8x8192.Idx → EReal) (Wm : S8192x16384.Idx → EReal) (B : S1x8192.Idx → EReal) : S8x8192.Idx → EReal :=
  fun i => Ideal.tanh ((Cert.Spec.part₁ X Wm (i 0) (i 1) + Cert.Spec.part₂ H Wm (i 0) (i 1)) + B (ix2 (0 : Fin 1) (i 1)))

theorem hidG_apply (X H : S8x8192.Idx → EReal) (Wm : S8192x16384.Idx → EReal) (B : S1x8192.Idx → EReal) (p : Fin 8) (r : Fin 8192) :
    hidG X H Wm B (ix2 p r) = Ideal.tanh ((Cert.Spec.part₁ X Wm p r + Cert.Spec.part₂ H Wm p r) + B (ix2 (0 : Fin 1) r)) := rfl

section
variable (V : (c : Dev nD) → (b : Ref sig .tc) → Buf (Elt Ideal) ((c : Thread nD τ).loc b))

/-- An index of the hidden array is in point t's block iff each coordinate is in the block's range on its axis. -/
theorem mem_hidBlk (t : Fin cfg0.N) (i : S8x8192.Idx) :
    i ∈ ((cfg0.win 4).blk t).view.set ↔ ∀ a : Fin 2, win0_4.index t a * S8x256.size a ≤ (i a).val ∧ (i a).val < win0_4.index t a * S8x256.size a + S8x256.size a := by
  show i ∈ ((View.whole main_v2).slice (win0_4.rect t)).set ↔ _
  rw [View.set_slice_whole, Rect.mem_set_unit]
  exact Iff.rfl

/-- Every index of the hidden array is in the block of its tile's second visit, which the pipeline writes back. -/
theorem cover_hidden (i : S8x8192.Idx) :
    ∃ t : Fin cfg0.N, (cfg0.win 4).flush t = true ∧ i ∈ ((cfg0.win 4).blk t).view.set := by
  have hi0 : (i 0).val < 8 := (i 0).isLt
  have hi1 : (i 1).val < 8192 := (i 1).isLt
  have hN : cfg0.N = 64 := N_0
  let t : Fin cfg0.N := ⟨2 * ((i 1).val / 256) + 1, by rw [hN]; omega⟩
  have htv : t.val = 2 * ((i 1).val / 256) + 1 := rfl
  refine ⟨t, (flush0_4 t).mpr (by rw [htv]; omega), ?_⟩
  rw [mem_hidBlk]
  obtain ⟨-, -, -, -, -, -, -, -, e0, e1⟩ := idx0 t
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 256 ≤ (i 1).val ∧ (i 1).val < win0_4.index t (1 : Fin 2) * 256 + 256; omega

/-- What a second visit writes back is its tile of `hidG` of the arrays the region finds. -/
theorem flushed_hidden (c : Dev nD) (t : Fin cfg0.N) (hf : (cfg0.win 4).flush t = true) :
    (dat0 (F := Ideal) V c).flushed 4 t
      = ((cfg0.win 4).blk t).view.read (Elt Ideal) (hidG (V c main_arg0) (V c main_arg1) (V c main_arg2) (V c main_v0)) := by
  have h1 : t.val % 2 = 1 := (flush0_4 t).mp hf
  show (cfg0.win 4).cut (grid0.coords t) ((dat0 (F := Ideal) V c).after 4 t) = _
  rw [after0_4]
  unfold hidAt partialAt
  funext j
  obtain ⟨p, q, rfl⟩ : ∃ (p : Fin 8) (q : Fin 256), j = ix2 p q := ⟨j 0, j 1, eq_ix2 j⟩
  rw [View.read_apply, hidEmb, hidG_apply]
  show hiddenTile (F := Ideal) (accFirst (F := Ideal) (xBlk V c (prevPt t.val t.isLt)) (wBlk V c (prevPt t.val t.isLt)))
      (hBlk V c t) (wBlk V c t) (bBlk V c t) (ix2 p q) = _
  rw [hiddenTile_apply, accFirst_apply]
  simp only [xBlk_apply, hBlk_apply, wBlk_apply, bBlk_apply]
  have er : (⟨256 * ((prevPt t.val t.isLt).val / 2) + q.val, tile_lt (prevPt t.val t.isLt) q⟩ : Fin 8192) = ⟨256 * (t.val / 2) + q.val, tile_lt t q⟩ :=
    Fin.ext (by show 256 * ((t.val - 1) / 2) + q.val = 256 * (t.val / 2) + q.val; omega)
  have elo : ∀ k : Fin 8192, (⟨8192 * ((prevPt t.val t.isLt).val % 2) + k.val, half_lt (prevPt t.val t.isLt) k⟩ : Fin 16384) = Cert.Spec.lo k :=
    fun k => Fin.ext (by show 8192 * ((t.val - 1) % 2) + k.val = k.val; omega)
  have ehi : ∀ k : Fin 8192, (⟨8192 * (t.val % 2) + k.val, half_lt t k⟩ : Fin 16384) = Cert.Spec.hi k :=
    fun k => Fin.ext (by show 8192 * (t.val % 2) + k.val = 8192 + k.val; omega)
  simp only [er, elo, ehi]
  rfl

/-- The hidden array after the region. -/
theorem hidden_final (c : Dev nD) :
    (dat0 (F := Ideal) V c).arrAt 4 cfg0.N = hidG (V c main_arg0) (V c main_arg1) (V c main_arg2) (V c main_v0) :=
  (dat0 (F := Ideal) V c).arrAt_eq_of_cover 4 _ (fun t hf => flushed_hidden V c t hf) cover_hidden

end

end Cert.KernelIdeal.Hand

end
-- ==== Proof.Ideal.OutputValue.lean ====
/-
  The result array after its region, over the extended reals. Point t writes back

      Σₖ hid[p, k] · Wₒ[256 t + q, k]  +  b[0, 256 t + q]

  at (p, q) of tile t, where hid is the hidden array as the region finds it. That is block t of ONE function of the
  arrays the region is entered with, and the 8 tiles cover the result array, so the array ends holding it.
-/
import proofs.«160519_j69879117906300_1_alg».proof.Proof.Ideal.OutputData
import proofs.«160519_j69879117906300_1_alg».proof.Proof.Ideal.BlockReads
import proofs.«160519_j69879117906300_1_alg».proof.Proof.Ideal.TileValues

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-- The output layer over the arrays the region finds: the hidden rows Hd, the output weights Wo and the bias as a
    [1, 2048] row B. -/
def outG (Hd : S8x8192.Idx → EReal) (Wo : S2048x8192.Idx → EReal) (B : S1x2048.Idx → EReal) : S8x2048.Idx → EReal :=
  fun i => (∑ k : Fin 8192, Hd (ix2 (i 0) k) * Wo (ix2 (i 1) k)) + B (ix2 (0 : Fin 1) (i 1))

theorem outG_apply (Hd : S8x8192.Idx → EReal) (Wo : S2048x8192.Idx → EReal) (B : S1x2048.Idx → EReal) (p : Fin 8) (o : Fin 2048) :
    outG Hd Wo B (ix2 p o) = (∑ k : Fin 8192, Hd (ix2 p k) * Wo (ix2 o k)) + B (ix2 (0 : Fin 1) o) := rfl

section
variable (V : (c : Dev nD) → (b : Ref sig .tc) → Buf (Elt Ideal) ((c : Thread nD τ).loc b))

/-- An index of the result array is in point t's block iff each coordinate is in the block's range on its axis. -/
theorem mem_outBlk (t : Fin cfg1.N) (i : S8x2048.Idx) :
    i ∈ ((cfg1.win 3).blk t).view.set ↔ ∀ a : Fin 2, win1_3.index t a * S8x256.size a ≤ (i a).val ∧ (i a).val < win1_3.index t a * S8x256.size a + S8x256.size a := by
  show i ∈ ((View.whole main_v3).slice (win1_3.rect t)).set ↔ _
  rw [View.set_slice_whole, Rect.mem_set_unit]
  exact Iff.rfl

/-- Every index of the result array is in its tile's block, which the pipeline writes back. -/
theorem cover_output (i : S8x2048.Idx) :
    ∃ t : Fin cfg1.N, (cfg1.win 3).flush t = true ∧ i ∈ ((cfg1.win 3).blk t).view.set := by
  have hi0 : (i 0).val < 8 := (i 0).isLt
  have hi1 : (i 1).val < 2048 := (i 1).isLt
  have hN : cfg1.N = 8 := N_1
  let t : Fin cfg1.N := ⟨(i 1).val / 256, by rw [hN]; omega⟩
  have htv : t.val = (i 1).val / 256 := rfl
  refine ⟨t, flush1_3 t, ?_⟩
  rw [mem_outBlk]
  obtain ⟨-, -, -, -, -, -, e0, e1⟩ := idx1 t
  intro a
  match a with
  | ⟨0, _⟩ => show win1_3.index t (0 : Fin 2) * 8 ≤ (i 0).val ∧ (i 0).val < win1_3.index t (0 : Fin 2) * 8 + 8; omega
  | ⟨1, _⟩ => show win1_3.index t (1 : Fin 2) * 256 ≤ (i 1).val ∧ (i 1).val < win1_3.index t (1 : Fin 2) * 256 + 256; omega

/-- What point t writes back is its tile of `outG` of the arrays the region finds. -/
theorem flushed_output (c : Dev nD) (t : Fin cfg1.N) :
    (dat1 (F := Ideal) V c).flushed 3 t
      = ((cfg1.win 3).blk t).view.read (Elt Ideal) (outG (V c main_v2) (V c main_arg4) (V c main_v1)) := by
  show (cfg1.win 3).cut (grid1.coords t) ((dat1 (F := Ideal) V c).after 3 t) = _
  rw [after1_3]
  unfold outAt
  funext j
  obtain ⟨p, q, rfl⟩ : ∃ (p : Fin 8) (q : Fin 256), j = ix2 p q := ⟨j 0, j 1, eq_ix2 j⟩
  rw [View.read_apply, outEmb, outG_apply]
  show outTile (F := Ideal) (hidBlk V c t) (woBlk V c t) (boBlk V c t) (ix2 p q) = _
  rw [outTile_apply]
  simp only [hidBlk_apply, woBlk_apply, boBlk_apply]
  rfl

/-- The result array after the region. -/
theorem output_final (c : Dev nD) :
    (dat1 (F := Ideal) V c).arrAt 3 cfg1.N = outG (V c main_v2) (V c main_arg4) (V c main_v1) :=
  (dat1 (F := Ideal) V c).arrAt_eq_of_cover 3 _ (fun t _ => flushed_output V c t) cover_output

end

end Cert.KernelIdeal.Hand

end
-- ==== Proof.Ideal.Result.lean ====
/-
  The result array in terms of the six arguments. The hidden layer's region is entered with x, h and W as launched and
  the first bias as the [1, 8192] row the host reshaped it into, so its array ends at the specification's hidden layer;
  the output layer's region is entered with that array, the output weights as launched and the second bias as its
  [1, 2048] row, so the result array ends at the specification's output.
-/
import proofs.«160519_j69879117906300_1_alg».proof.Proof.Ideal.Frame
import proofs.«160519_j69879117906300_1_alg».proof.Proof.Ideal.HiddenValue
import proofs.«160519_j69879117906300_1_alg».proof.Proof.Ideal.OutputValue
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-! ## The bias rows the host writes -/

theorem V1_main_v0 (c : Dev nD) :
    (V1 (F := Ideal) m c main_v0 : S1x8192.Idx → EReal) = shapeCast S1x8192 (m ((c : Thread nD τ).loc main_arg3)) shapeCasts_S8192_S1x8192 := by
  show StableHlo.after hostOps0 (Gen.V0 m c) (Proc.devRef .tc main_v0) = _
  after_results
  rfl

theorem V1_main_v1 (c : Dev nD) :
    (V1 (F := Ideal) m c main_v1 : S1x2048.Idx → EReal) = shapeCast S1x2048 (m ((c : Thread nD τ).loc main_arg5)) shapeCasts_S2048_S1x2048 := by
  show StableHlo.after hostOps0 (Gen.V0 m c) (Proc.devRef .tc main_v1) = _
  after_results
  rfl

/-- Column r of the first bias row is entry r of the bias vector. -/
theorem bias1_row (c : Dev nD) (r : Fin 8192) :
    V1 (F := Ideal) m c main_v0 (ix2 (0 : Fin 1) r) = m ((c : Thread nD τ).loc main_arg3) (ix1 r) := by
  rw [V1_main_v0]
  exact shapeCast_apply _ _ _ (ix1 r) (by
    rw [Shape.rowMajor_val_one, Shape.rowMajor_val_two]
    show r.val = 0 * 8192 + r.val
    omega)

/-- Column o of the second bias row is entry o of the bias vector. -/
theorem bias2_row (c : Dev nD) (o : Fin 2048) :
    V2 (F := Ideal) m c main_v1 (ix2 (0 : Fin 1) o) = m ((c : Thread nD τ).loc main_arg5) (ix1 o) := by
  have e : V2 (F := Ideal) m c main_v1 = V1 (F := Ideal) m c main_v1 := W2_of_ne m c main_v1 (by decide)
  rw [e, V1_main_v1]
  exact shapeCast_apply _ _ _ (ix1 o) (by
    rw [Shape.rowMajor_val_one, Shape.rowMajor_val_two]
    show o.val = 0 * 2048 + o.val
    omega)

/-! ## The hidden array -/

theorem hidden_array (c : Dev nD) :
    V2 (F := Ideal) m c main_v2
      = Cert.Spec.hiddenArr (m ((c : Thread nD τ).loc main_arg0)) (m ((c : Thread nD τ).loc main_arg1))
          (m ((c : Thread nD τ).loc main_arg2)) (m ((c : Thread nD τ).loc main_arg3)) := by
  have e0 : V1 (F := Ideal) m c main_arg0 = m ((c : Thread nD τ).loc main_arg0) := Gen.V1_of m c main_arg0 (by decide)
  have e1 : V1 (F := Ideal) m c main_arg1 = m ((c : Thread nD τ).loc main_arg1) := Gen.V1_of m c main_arg1 (by decide)
  have e2 : V1 (F := Ideal) m c main_arg2 = m ((c : Thread nD τ).loc main_arg2) := Gen.V1_of m c main_arg2 (by decide)
  refine ((W2_arr m c 4).trans (hidden_final (V1 m) c)).trans ?_
  rw [e0, e1, e2]
  funext i
  obtain ⟨p, r, rfl⟩ : ∃ (p : Fin 8) (r : Fin 8192), i = ix2 p r := ⟨i 0, i 1, eq_ix2 i⟩
  rw [hidG_apply, bias1_row]
  rfl

/-! ## The result array -/

theorem result_value (c : Dev nD) :
    (dat1 (F := Ideal) (V2 m) c).arrAt 3 cfg1.N
      = Cert.Spec.output (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have e4 : V2 (F := Ideal) m c main_arg4 = m ((c : Thread nD τ).loc main_arg4) :=
    (W2_of_ne m c main_arg4 (by decide)).trans (Gen.V1_of m c main_arg4 (by decide))
  rw [output_final (V2 m) c, hidden_array m c, e4]
  funext i
  obtain ⟨p, o, rfl⟩ : ∃ (p : Fin 8) (o : Fin 2048), i = ix2 p o := ⟨i 0, i 1, eq_ix2 i⟩
  rw [outG_apply, bias2_row]
  rfl

/-- The run with the result named: the result array at the specification's output of the launch arguments, the
    arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v3)
        = Cert.Spec.output (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_value m c), (h c).2⟩) (run_result m ρ)

end Cert.KernelIdeal.Hand

end
-- ==== Proof.RefValue.lean ====
/-
  The reference program's result, read one element at a time over the extended reals.

  The program slices the weight matrix W : [8192, 16384] into its left and right halves, contracts the input rows x
  with the left half and the previous hidden rows h with the right half (the last axis of both operands each time),
  adds the two products, adds the bias b₁ broadcast along the rows, applies tanh, contracts the result with the
  output weights Wₒ along their last axis, and adds the bias b₂ broadcast along the rows:

      out[p, o] = Σₖ tanh ( ( Σⱼ x[p, j] · W[k, j]  +  Σⱼ h[p, j] · W[k, 8192 + j] )  +  b₁[k] ) · Wₒ[o, k]  +  b₂[o].

  Each operation's element is a function of one element of each operand (or a sum of products of such elements), at
  an index computed from the result's index. Composing those index functions at an index (p, o), respectively (p, r),
  gives the coordinates the specification names: (p, k), (o, k), (r, k) in the left half, (r, 8192 + k) in the right
  half, and the single coordinates r and o of the two biases. With the indices identified, the two sides are the same
  expression, the sums grouped the same way; no law of the extended reals is used.
-/
import proofs.«160519_j69879117906300_1_alg».proof.Proof.Gen.ReferenceIdeal.Run
import proofs.«160519_j69879117906300_1_alg».proof.Proof.Gen.ReferenceIdeal.Read
import proofs.«160519_j69879117906300_1_alg».proof.Proof.Spec

noncomputable section

namespace Cert.ReferenceIdeal.RefValue

open Idealize.ShloMosaic Idealize.ShloMosaic.ValueIdx Cert.ReferenceIdeal Cert.ReferenceIdeal.Gen Cert.ReferenceIdeal.Read

/-! ## The composed index functions, at an index given by its coordinates -/

/-- The first product's left operand is read at row p, column k. -/
theorem lidx_v2 (p : Fin 8) (r : Fin 8192) (k : Fin 8192) : lidx_main_v2 (ix2 p r) k = ix2 p k :=
  funext fun a => Fin.ext (by match a with | ⟨0, _⟩ => rfl | ⟨1, _⟩ => rfl)

/-- The second product's left operand is read at row p, column k. -/
theorem lidx_v3 (p : Fin 8) (r : Fin 8192) (k : Fin 8192) : lidx_main_v3 (ix2 p r) k = ix2 p k :=
  funext fun a => Fin.ext (by match a with | ⟨0, _⟩ => rfl | ⟨1, _⟩ => rfl)

/-- The first product's right operand, the left half of the weights, is the weight matrix at row r, column k. -/
theorem idx_v0_v2 (p : Fin 8) (r : Fin 8192) (k : Fin 8192) :
    idx_main_v0 (ridx_main_v2 (ix2 p r) k) = ix2 r (Cert.Spec.lo k) :=
  funext fun a => Fin.ext (by match a with | ⟨0, _⟩ => rfl | ⟨1, _⟩ => rfl)

/-- The second product's right operand, the right half of the weights, is the weight matrix at row r, column 8192 + k. -/
theorem idx_v1_v3 (p : Fin 8) (r : Fin 8192) (k : Fin 8192) :
    idx_main_v1 (ridx_main_v3 (ix2 p r) k) = ix2 r (Cert.Spec.hi k) :=
  funext fun a => Fin.ext (by match a with | ⟨0, _⟩ => rfl | ⟨1, _⟩ => rfl)

/-- The first bias, broadcast twice, is read at r. -/
theorem idx_v5_v6 (p : Fin 8) (r : Fin 8192) : idx_main_v5 (idx_main_v6 (ix2 p r)) = ix1 r :=
  funext fun a => Fin.ext (by match a with | ⟨0, _⟩ => rfl)

/-- The output product's left operand, the hidden layer, is read at row p, column k. -/
theorem lidx_v9 (p : Fin 8) (o : Fin 2048) (k : Fin 8192) : lidx_main_v9 (ix2 p o) k = ix2 p k :=
  funext fun a => Fin.ext (by match a with | ⟨0, _⟩ => rfl | ⟨1, _⟩ => rfl)

/-- The output product's right operand, the output weights, is read at row o, column k. -/
theorem ridx_v9 (p : Fin 8) (o : Fin 2048) (k : Fin 8192) : ridx_main_v9 (ix2 p o) k = ix2 o k :=
  funext fun a => Fin.ext (by match a with | ⟨0, _⟩ => rfl | ⟨1, _⟩ => rfl)

/-- The second bias, broadcast twice, is read at o. -/
theorem idx_v10_v11 (p : Fin 8) (o : Fin 2048) : idx_main_v10 (idx_main_v11 (ix2 p o)) = ix1 o :=
  funext fun a => Fin.ext (by match a with | ⟨0, _⟩ => rfl)

/-! ## The hidden layer -/

/-- The program's hidden layer at (p, r) is the specification's: tanh of the two partial products' sum plus the bias. -/
theorem hidden_eq (x0 x1 : (⟨S8x8192, .f32⟩ : BufTy).Contents (Elt Ideal)) (x2 : (⟨S8192x16384, .f32⟩ : BufTy).Contents (Elt Ideal))
    (x3 : (⟨S8192, .f32⟩ : BufTy).Contents (Elt Ideal)) (p : Fin 8) (r : Fin 8192) :
    val_main_v8 (F := Ideal) x0 x1 x2 x3 (ix2 p r) = Cert.Spec.hidden x0 x1 x2 x3 p r := by
  rw [val_main_v8_apply, val_main_v7_apply, val_main_v4_apply, val_main_v2_apply, val_main_v3_apply,
    val_main_v6_apply, val_main_v5_apply, idx_v5_v6]
  simp only [val_main_v0_apply, val_main_v1_apply, lidx_v2, lidx_v3, idx_v0_v2, idx_v1_v3,
    Ideal.addf_def, Ideal.hostUnary_tanh_def]
  unfold Cert.Spec.hidden Cert.Spec.part₁ Cert.Spec.part₂
  rfl

/-! ## The result -/

/-- The reference program's result is the specification's function of the six arguments. -/
theorem result_eq_spec (x0 x1 : (⟨S8x8192, .f32⟩ : BufTy).Contents (Elt Ideal)) (x2 : (⟨S8192x16384, .f32⟩ : BufTy).Contents (Elt Ideal))
    (x3 : (⟨S8192, .f32⟩ : BufTy).Contents (Elt Ideal)) (x4 : (⟨S2048x8192, .f32⟩ : BufTy).Contents (Elt Ideal)) (x5 : (⟨S2048, .f32⟩ : BufTy).Contents (Elt Ideal)) :
    val_main_v12 (F := Ideal) x0 x1 x2 x3 x4 x5 = Cert.Spec.output x0 x1 x2 x3 x4 x5 := by
  funext i
  obtain ⟨p, o, rfl⟩ : ∃ (p : Fin 8) (o : Fin 2048), i = ix2 p o := ⟨i 0, i 1, eq_ix2 i⟩
  rw [val_main_v12_apply, val_main_v9_apply, val_main_v11_apply, val_main_v10_apply, idx_v10_v11]
  simp only [lidx_v9, ridx_v9, hidden_eq, Ideal.addf_def]
  unfold Cert.Spec.output Cert.Spec.outputAt
  rfl

end Cert.ReferenceIdeal.RefValue

end
-- ==== Proof.lean ====
/-
  A two-layer recurrent cell on one TensorCore against its plain reference, over the extended reals:

      hidden = tanh ( [x, h] · Wᵀ + b₁ ),      out = hidden · Wₒᵀ + b₂,

  with x, h : [8, 8192], W : [8192, 16384], Wₒ : [2048, 8192]. The kernel program computes the hidden layer in a
  pipelined region that visits each tile of 256 hidden columns twice — once for the left half of W against x, once for
  the right half against h, the partial sum kept in an accumulator between the two visits — and the output layer in a
  second region, one visit per tile of 256 output columns. The reference slices W in two, contracts each half, adds,
  and contracts again. Both group the sums the same way, so each side's result is, index by index, the one function
  `Cert.Spec.output` of the six arguments, and the comparison needs no law of the extended reals and never opens the
  finiteness precondition.

  The three frames: both kernel programs run as a host stretch followed by the two regions, each region entered with
  its windows' arrays split out of the core's buffers and left with them put back; the reference's frame is its run
  with the result dropped. The idealization rewrote nothing, so `preserves` has nothing to state.
-/
import proofs.«160519_j69879117906300_1_alg».proof.Defs
import proofs.«160519_j69879117906300_1_alg».proof.Proof.Gen.Kernel
import proofs.«160519_j69879117906300_1_alg».proof.Proof.Gen.KernelIdeal
import proofs.«160519_j69879117906300_1_alg».proof.Proof.Gen.ReferenceIdeal
import proofs.«160519_j69879117906300_1_alg».proof.Proof.Gen.Pre_finite_inputs
import proofs.«160519_j69879117906300_1_alg».proof.Proof.Bits.Frame
import proofs.«160519_j69879117906300_1_alg».proof.Proof.Ideal.Result
import proofs.«160519_j69879117906300_1_alg».proof.Proof.RefValue

noncomputable section

namespace Cert.Proof

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `Cert.Spec.output` of the arguments they were launched with, and the two
    launches agree on the arguments. -/
theorem algebraic : Cert.algebraic_KernelIdeal_ReferenceIdeal := by
  intro m ρ m' ρ' _ hagree
  refine ⟨fun c => Cert.Spec.output (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq_spec,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
